-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S2048x256 : Shape := ⟨2, ![2048, 256]⟩
abbrev S1024x256 : Shape := ⟨2, ![1024, 256]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x1024_S2048x1024 : S2048x1024.ShapeCasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .f32 = 32 ∨ (Rect.block (s := S4096x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S8192x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.TernaryAlgebra.lean ====
/-
  The arithmetic of a ternary linear layer on the extended reals.

  A weight `w` is binarised to `ind w` — one where `w` is positive, zero elsewhere. The straight-through form
  `w + (ind w - w)` is `ind w` again as soon as `w` is a real number (at an infinity the difference is not
  cancelled). With every activation and every weight real, the difference of the two binarised products
  `∑ x·(w₁ + (ind w₁ - w₁)) - ∑ x·(w₂ + (ind w₂ - w₂))` is therefore the single product with the ternary weight,
  `∑ x·(ind w₁ - ind w₂)`: the sums are sums of reals, where a factor moves across a difference. The last lemma
  cuts a sum over 4096 contracted coordinates into 16 consecutive runs of 256; `ternaryLinear` is the layer itself,
  the function both programs are shown to compute.
-/
import Idealize.ShloMosaic.PureOps.Ideal.Laws
import Idealize.ShloMosaic.Lib.ValueIdx

namespace Cert.Ternary

open Finset Idealize.ShloMosaic Idealize.ShloMosaic.ValueIdx

/-- One where the weight is positive, zero elsewhere. -/
noncomputable def ind (w : EReal) : EReal := if 0 < w then 1 else 0

/-- The indicator is a real number. -/
theorem ind_coe (w : EReal) : ∃ p : ℝ, ind w = (p : EReal) := by
  unfold ind
  split
  · exact ⟨1, EReal.coe_one.symm⟩
  · exact ⟨0, EReal.coe_zero.symm⟩

/-- A finite sum of reals, read as an extended real, is the sum of its terms read so. -/
theorem coe_sum {ι : Type*} (s : Finset ι) (f : ι → ℝ) :
    ((∑ k ∈ s, f k : ℝ) : EReal) = ∑ k ∈ s, (f k : EReal) := by
  classical
  refine Finset.induction_on s ?_ ?_
  · simp
  · intro a s ha ih
    rw [Finset.sum_insert ha, Finset.sum_insert ha, EReal.coe_add, ih]

/-- With real activations and real weights, the difference of the two straight-through products is the one product
    with the ternary weight `ind w₁ - ind w₂`. -/
theorem straight_through_sub {ι : Type*} [Fintype ι] (x w₁ w₂ : ι → EReal)
    (hx : ∀ k, ∃ r : ℝ, x k = r) (h₁ : ∀ k, ∃ r : ℝ, w₁ k = r) (h₂ : ∀ k, ∃ r : ℝ, w₂ k = r) :
    (∑ k, x k * (w₁ k + (ind (w₁ k) - w₁ k))) - ∑ k, x k * (w₂ k + (ind (w₂ k) - w₂ k))
      = ∑ k, x k * (ind (w₁ k) - ind (w₂ k)) := by
  choose xr hxr using hx
  choose a ha using h₁
  choose b hb using h₂
  obtain rfl : x = fun k => (xr k : EReal) := funext hxr
  obtain rfl : w₁ = fun k => (a k : EReal) := funext ha
  obtain rfl : w₂ = fun k => (b k : EReal) := funext hb
  choose p hp using fun k => ind_coe (a k : EReal)
  choose q hq using fun k => ind_coe (b k : EReal)
  simp only [hp, hq, ← EReal.coe_sub, ← EReal.coe_add, ← EReal.coe_mul, ← coe_sum]
  have e₁ : ∀ k, a k + (p k - a k) = p k := fun k => by ring
  have e₂ : ∀ k, b k + (q k - b k) = q k := fun k => by ring
  simp only [e₁, e₂, mul_sub, Finset.sum_sub_distrib]

/-- A sum over 4096 coordinates, cut into 16 consecutive runs of 256. -/
theorem sum_runs (f : Fin 4096 → EReal) :
    ∑ k : Fin 4096, f k
      = ∑ s : Fin 16, ∑ j : Fin 256, f ⟨256 * s.val + j.val, by have := s.isLt; have := j.isLt; omega⟩ := by
  rw [← (finProdFinEquiv : Fin 16 × Fin 256 ≃ Fin 4096).sum_comp, Fintype.sum_prod_type]
  refine Finset.sum_congr rfl fun s _ => Finset.sum_congr rfl fun j _ => congrArg f (Fin.ext ?_)
  show j.val + 256 * s.val = 256 * s.val + j.val
  omega

/-- THE LAYER: 8192 tokens of 4096 features against 4096 output rows of ternary weights. Output `(t, o)` is the
    product of token `t`'s features with the row `ind p (o, ·) - ind q (o, ·)`. -/
noncomputable def ternaryLinear (x : (⟨2, ![8192, 4096]⟩ : Shape).Idx → EReal)
    (p q : (⟨2, ![4096, 4096]⟩ : Shape).Idx → EReal) : (⟨2, ![8192, 4096]⟩ : Shape).Idx → EReal :=
  fun i => ∑ k : Fin 4096, x (ix2 (n0 := 8192) (n1 := 4096) (i 0) k)
    * (ind (p (ix2 (n0 := 4096) (n1 := 4096) (i 1) k)) - ind (q (ix2 (n0 := 4096) (n1 := 4096) (i 1) k)))

end Cert.Ternary
-- ==== Proof.TernaryPayload.lean ====
/-
  One grid point's contribution, element by element.

  At a grid point the kernel body holds a [2048, 256] block `x` of activations and two [1024, 256] blocks `p`, `q`
  of weights. It binarises each weight (`ind`: one where positive, zero elsewhere; the conversion to the narrow
  float format is the identity on extended reals), multiplies `x` by the transposed ternary block `ind p - ind q`
  into a zero accumulator, and adds the product to what the output block held. So the element `(r, n)` of what it
  stores is the old element plus `∑ kk, x (r, kk) · (ind (p (n, kk)) - ind (q (n, kk)))`, the sum running over the
  256 contracted coordinates of the block.
-/
import proofs.«116733_j75874892251182_1_alg».proof.Proof.Gen.KernelIdeal.Skeleton
import proofs.«116733_j75874892251182_1_alg».proof.Proof.TernaryAlgebra
import Idealize.ShloMosaic.Lib.ValueIdx
import Idealize.ShloMosaic.Lib.Pipeline.Value
import Idealize.ShloMosaic.PureOps.Ideal.Laws

noncomputable section

namespace Cert.Ternary

open Cert.KernelIdeal Cert.KernelIdeal.Gen Idealize.ShloMosaic Idealize.ShloMosaic.ValueIdx

/-- The kernel's binarisation of one weight — compare with zero, widen the bit to a 32-bit integer, read the integer
    as a float — is the indicator of positivity. -/
theorem kernel_ind (w z : Ideal .f32) (hz : z = 0) :
    FloatOps.sitofp (F := Ideal) .f32 ((FloatOps.cmpf (F := Ideal) .ogt w z).setWidth 32) = ind w := by
  subst hz
  show (((BitVec.setWidth 32 (Ideal.cmp .ogt w 0)).toInt : ℝ) : EReal) = ind w
  unfold ind Ideal.cmp
  by_cases h : (0:EReal) < w
  · simp [h]
  · simp [h]

/-- The left operand's row is the output's row. -/
theorem lhs_row (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
/-- The left operand's column is the contracted coordinate. -/
theorem lhs_col (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
/-- The right operand's row is the output's column. -/
theorem rhs_row (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
/-- The right operand's column is the contracted coordinate. -/
theorem rhs_col (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- What the body stores, at `(r, n)`: the old element plus the block's product with the ternary weights. -/
theorem pay2_apply (x1 x2 : Vec Ideal S1024x256 .f32) (x0 : Vec Ideal S2048x256 .f32) (acc : Vec Ideal S2048x1024 .f32)
    (r : Fin 2048) (n : Fin 1024) :
    k0_pay2 (F := Ideal) x1 x2 x0 acc (ix2 r n)
      = acc (ix2 r n) + ∑ kk : Fin 256, x0 (ix2 r kk) * (ind (x1 (ix2 n kk)) - ind (x2 (ix2 n kk))) := by
  unfold k0_pay2
  rw [addf_apply, shapeCast_self]
  refine congrArg (acc (ix2 r n) + ·) ?_
  show FloatOps.matmul dot_S2048x256_S1024x256_S2048x1024_1_1_0_0_n_n none _ _ (constant _ .f32 0x00000000#32) (ix2 r n) = _
  rw [Ideal.matmul_constant_zero_apply, ← Equiv.sum_comp (contrEquiv1 dot_S2048x256_S1024x256_S2048x1024_1_1_0_0_n_n 256 rfl rfl).symm]
  refine Finset.sum_congr rfl fun kk _ => ?_
  have hk := contrEquiv1_symm_val dot_S2048x256_S1024x256_S2048x1024_1_1_0_0_n_n 256 rfl rfl kk
  have el : dot_S2048x256_S1024x256_S2048x1024_1_1_0_0_n_n.lhsIdx (ix2 r n) ((contrEquiv1 dot_S2048x256_S1024x256_S2048x1024_1_1_0_0_n_n 256 rfl rfl).symm kk) = ix2 r kk := funext fun a => Fin.ext (by
    match a with
    | ⟨0, _⟩ => exact lhs_row _ _
    | ⟨1, _⟩ => exact (lhs_col _ _).trans hk)
  have er : dot_S2048x256_S1024x256_S2048x1024_1_1_0_0_n_n.rhsIdx (ix2 r n) ((contrEquiv1 dot_S2048x256_S1024x256_S2048x1024_1_1_0_0_n_n 256 rfl rfl).symm kk) = ix2 n kk := funext fun a => Fin.ext (by
    match a with
    | ⟨0, _⟩ => exact rhs_row _ _
    | ⟨1, _⟩ => exact (rhs_col _ _).trans hk)
  rw [el, er]
  rw [truncf_apply, subf_apply, truncf_apply, truncf_apply, sitofp_apply, sitofp_apply, extui_apply, extui_apply,
    cmpf_apply, cmpf_apply]
  rw [kernel_ind _ _ (by exact Ideal.ofBits_zero_f32), kernel_ind _ _ (by exact Ideal.ofBits_zero_f32)]

end Cert.Ternary

end
-- ==== Proof.TernaryBlocks.lean ====
/-
  The grid and the fold along its last axis.

  The grid is 4 × 4 × 16: point `t = 64·a + 16·b + s` works on row block `a` of the activations, row block `b` of
  the weights (which is column block `b` of the output) and the `s`-th run of 256 contracted coordinates. So the
  activation block at `t` is rows `2048·a …`, columns `256·s …` of the activations, and the weight blocks are rows
  `1024·b …`, columns `256·s …` of the two weight arrays.
  Output block `(a, b)` is zeroed at `s = 0` and receives one block product at each of its 16 points: after the
  last, its element `y` holds zero plus the sum over `s` of the points' addends.
-/
import proofs.«116733_j75874892251182_1_alg».proof.Proof.Gen.KernelIdeal.Value
import proofs.«116733_j75874892251182_1_alg».proof.Proof.TernaryPayload

noncomputable section

namespace Cert.Ternary

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The activation block at point `t`. -/
abbrev xblk (c : Dev nD) (t : Fin cfg0.N) : Vec Ideal S2048x256 .f32 := iblk m c 0 t
/-- The first weight block at point `t`. -/
abbrev pblk (c : Dev nD) (t : Fin cfg0.N) : Vec Ideal S1024x256 .f32 := iblk m c 1 t
/-- The second weight block at point `t`. -/
abbrev qblk (c : Dev nD) (t : Fin cfg0.N) : Vec Ideal S1024x256 .f32 := iblk m c 2 t

/-- The printed index maps over the grid: which block of each argument a point stages. -/
theorem block_indices : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = t.val / 16 % 4 ∧ win0_2.index t (1 : Fin 2) = t.val % 16 :=
  (by decide +kernel : ∀ t : Fin grid0.N, _)

/-- The activation block at `t`, element `(r, kk)`: row `2048·(t / 64) + r`, column `256·(t % 16) + kk` of the activations. -/
theorem xblk_apply (c : Dev nD) (t : Fin cfg0.N) (r : Fin 2048) (kk : Fin 256) (R : Fin 8192) (K : Fin 4096)
    (hR : R.val = 2048 * (t.val / 64) + r.val) (hK : K.val = 256 * (t.val % 16) + kk.val) :
    xblk m c t (ix2 r kk) = m ((c : Thread nD τ).loc main_arg0) (ix2 R K) := by
  obtain ⟨e0, e1, -⟩ := block_indices t
  unfold xblk iblk
  rw [View.read_apply]
  show V m c main_arg0 _ = m (c.tc.loc main_arg0) _
  unfold V
  congr 1
  funext a
  apply Fin.ext
  match a with
  | ⟨0, _⟩ => show win0_0.index t 0 * 2048 + 1 * r.val = R.val; rw [e0, hR]; omega
  | ⟨1, _⟩ => show win0_0.index t 1 * 256 + 1 * kk.val = K.val; rw [e1, hK]; omega

/-- The first weight block at `t`, element `(n, kk)`: row `1024·(t / 16 % 4) + n`, column `256·(t % 16) + kk`. -/
theorem w1blk_apply (c : Dev nD) (t : Fin cfg0.N) (n : Fin 1024) (kk : Fin 256) (O : Fin 4096) (K : Fin 4096)
    (hO : O.val = 1024 * (t.val / 16 % 4) + n.val) (hK : K.val = 256 * (t.val % 16) + kk.val) :
    pblk m c t (ix2 n kk) = m ((c : Thread nD τ).loc main_arg1) (ix2 O K) := by
  obtain ⟨-, -, e0, e1, -⟩ := block_indices t
  unfold pblk iblk
  rw [View.read_apply]
  show V m c main_arg1 _ = m (c.tc.loc main_arg1) _
  unfold V
  congr 1
  funext a
  apply Fin.ext
  match a with
  | ⟨0, _⟩ => show win0_1.index t 0 * 1024 + 1 * n.val = O.val; rw [e0, hO]; omega
  | ⟨1, _⟩ => show win0_1.index t 1 * 256 + 1 * kk.val = K.val; rw [e1, hK]; omega

/-- The second weight block at `t`, likewise. -/
theorem w2blk_apply (c : Dev nD) (t : Fin cfg0.N) (n : Fin 1024) (kk : Fin 256) (O : Fin 4096) (K : Fin 4096)
    (hO : O.val = 1024 * (t.val / 16 % 4) + n.val) (hK : K.val = 256 * (t.val % 16) + kk.val) :
    qblk m c t (ix2 n kk) = m ((c : Thread nD τ).loc main_arg2) (ix2 O K) := by
  obtain ⟨-, -, -, -, e0, e1⟩ := block_indices t
  unfold qblk iblk
  rw [View.read_apply]
  show V m c main_arg2 _ = m (c.tc.loc main_arg2) _
  unfold V
  congr 1
  funext a
  apply Fin.ext
  match a with
  | ⟨0, _⟩ => show win0_2.index t 0 * 1024 + 1 * n.val = O.val; rw [e0, hO]; omega
  | ⟨1, _⟩ => show win0_2.index t 1 * 256 + 1 * kk.val = K.val; rw [e1, hK]; omega

/-- What point `n` adds to element `y` of its output block: its activation block's row `y 0` times the ternary
    weights' row `y 1`, over the block's 256 contracted coordinates. (Zero past the grid, where it is never read.) -/
def addend (c : Dev nD) (n : ℕ) (y : S2048x1024.Idx) : EReal :=
  if h : n < cfg0.N then
    ∑ kk : Fin 256, xblk m c ⟨n, h⟩ (ix2 (y 0) kk)
      * (ind (pblk m c ⟨n, h⟩ (ix2 (y 1) kk)) - ind (qblk m c ⟨n, h⟩ (ix2 (y 1) kk)))
  else 0

/-- The output block after the 16 points of a run starting at `b`: zero plus the points' addends. -/
theorem fold_apply (c : Dev nD) (b : ℕ) (h : b + 15 < cfg0.N) (y : S2048x1024.Idx) :
    (Pipeline.accAt (Value.reset3 m c) (Value.step3 m c) b 15 h : Vec Ideal S2048x1024 .f32) y
      = 0 + ∑ s ∈ Finset.range 16, addend m c (b + s) y := by
  refine Pipeline.accAt_add_apply (ι := S2048x1024.Idx) (β := EReal) (Value.reset3 m c) (Value.step3 m c) (fun _ => 0)
    (addend m c) b 15 ?_ ?_ 15 le_rfl h y
  · intro hb i
    unfold Value.reset3 addend
    rw [dif_pos hb, eq_ix2 i]
    refine (pay2_apply _ _ _ _ (i 0) (i 1)).trans ?_
    refine congrArg (· + _) ?_
    show Ideal.ofBits .f32 0x00000000#32 = 0
    exact Ideal.ofBits_zero_f32
  · intro n hn acc i _ _
    unfold Value.step3 addend
    rw [dif_pos hn, eq_ix2 i]
    exact pay2_apply _ _ _ _ (i 0) (i 1)

end Cert.Ternary
end
-- ==== Proof.TernaryKernelValue.lean ====
/-
  The kernel computes the layer.

  The array the kernel leaves is, inside output block `(a, b)`, the fold of that block's 16 points. Element
  `(t, o)` lies in block `(t / 2048, o / 1024)` at place `(t % 2048, o % 1024)`; the `s`-th point of the block's run
  adds the products over contracted coordinates `256·s … 256·s + 255`, read from row `t` of the activations and row
  `o` of the weights. The 16 runs of 256 are the 4096 contracted coordinates, each once.
-/
import proofs.«116733_j75874892251182_1_alg».proof.Proof.TernaryBlocks

noncomputable section

namespace Cert.Ternary

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The activations as launched. -/
abbrev xarr (c : Dev nD) : Vec Ideal S8192x4096 .f32 := m ((c : Thread nD τ).loc main_arg0)
/-- The first weight array as launched. -/
abbrev parr (c : Dev nD) : Vec Ideal S4096x4096 .f32 := m ((c : Thread nD τ).loc main_arg1)
/-- The second weight array as launched. -/
abbrev qarr (c : Dev nD) : Vec Ideal S4096x4096 .f32 := m ((c : Thread nD τ).loc main_arg2)

/-- The array the kernel leaves is the layer of the arrays it was launched with. -/
theorem G3_eq (c : Dev nD) : Value.G3 m c = ternaryLinear (xarr m c) (parr m c) (qarr m c) := by
  funext i
  have hi0 : (i 0).val < 8192 := (i 0).isLt
  have hi1 : (i 1).val < 4096 := (i 1).isLt
  have hN : cfg0.N = 256 := N_0
  have hr : Value.run3Of i = 4 * ((i 0).val / 2048) + (i 1).val / 1024 := by
    show 4 * ((i 0).val / 2048 - 0) + 1 * ((i 1).val / 1024 - 0) = _
    omega
  show @Eq EReal (Value.G3 m c i) (ternaryLinear (xarr m c) (parr m c) (qarr m c) i)
  unfold Value.G3 ternaryLinear
  rw [dif_pos (by rw [hr, hN]; omega), fold_apply, zero_add, Finset.sum_range, sum_runs]
  refine Finset.sum_congr rfl fun s _ => ?_
  have hs : s.val < 16 := s.isLt
  have ht : 16 * Value.run3Of i + s.val < cfg0.N := by rw [hN, hr]; omega
  unfold addend
  rw [dif_pos ht]
  refine Finset.sum_congr rfl fun kk _ => ?_
  have hkk : kk.val < 256 := kk.isLt
  rw [xblk_apply m c ⟨16 * Value.run3Of i + s.val, ht⟩ (Value.loc3Of i 0) kk (i 0) ⟨256 * s.val + kk.val, by omega⟩
      (by show (i 0).val = 2048 * ((16 * Value.run3Of i + s.val) / 64) + (i 0).val % 2048; rw [hr]; omega)
      (by show 256 * s.val + kk.val = 256 * ((16 * Value.run3Of i + s.val) % 16) + kk.val; omega),
    w1blk_apply m c ⟨16 * Value.run3Of i + s.val, ht⟩ (Value.loc3Of i 1) kk (i 1) ⟨256 * s.val + kk.val, by omega⟩
      (by show (i 1).val = 1024 * ((16 * Value.run3Of i + s.val) / 16 % 4) + (i 1).val % 1024; rw [hr]; omega)
      (by show 256 * s.val + kk.val = 256 * ((16 * Value.run3Of i + s.val) % 16) + kk.val; omega),
    w2blk_apply m c ⟨16 * Value.run3Of i + s.val, ht⟩ (Value.loc3Of i 1) kk (i 1) ⟨256 * s.val + kk.val, by omega⟩
      (by show (i 1).val = 1024 * ((16 * Value.run3Of i + s.val) / 16 % 4) + (i 1).val % 1024; rw [hr]; omega)
      (by show 256 * s.val + kk.val = 256 * ((16 * Value.run3Of i + s.val) % 16) + kk.val; omega)]

end Cert.Ternary
end
-- ==== Proof.TernaryReference.lean ====
/-
  The reference computes the layer.

  The reference binarises each weight on the host (compare with zero, read the bit as a float: `ind`), forms the
  straight-through weight `w + (ind w - w)`, multiplies the activations by each of the two weight arrays' transposes
  and subtracts. Element `(t, o)` is `∑ k, x (t, k)·(p (o, k) + (ind (p (o, k)) - p (o, k)))` minus the same with `q`.
  With real activations and real weights that is the product with the ternary row `ind p (o, ·) - ind q (o, ·)`.
-/
import proofs.«116733_j75874892251182_1_alg».proof.Proof.Gen.ReferenceIdeal.Read
import proofs.«116733_j75874892251182_1_alg».proof.Proof.TernaryAlgebra

noncomputable section

namespace Cert.Ternary

open Cert.ReferenceIdeal Cert.ReferenceIdeal.Gen Cert.ReferenceIdeal.Read Idealize.ShloMosaic Idealize.ShloMosaic.ValueIdx

/-- The host's binarisation of one weight — compare with zero, read the bit as a float — is the indicator of positivity. -/
theorem host_ind (w z : Ideal .f32) (hz : z = 0) :
    FloatOps.uitofp (F := Ideal) .f32 (FloatOps.cmpf (F := Ideal) .ogt w z) = ind w := by
  subst hz
  show (((Ideal.cmp .ogt w 0).toNat : ℝ) : EReal) = ind w
  unfold ind Ideal.cmp
  by_cases h : (0:EReal) < w
  · simp [h]
  · simp [h]

/-- The first straight-through weight at an element. -/
theorem ste_p_apply (x1 : (⟨S4096x4096, .f32⟩ : BufTy).Contents (Elt Ideal)) (j : S4096x4096.Idx) :
    val_main_v4 (F := Ideal) x1 j = x1 j + (ind (x1 j) - x1 j) := by
  rw [val_main_v4_apply, val_main_v3_apply, val_main_v2_apply, val_main_v1_apply, val_main_v0_apply, val_main_cst_apply,
    host_ind _ _ (by exact Ideal.ofBits_zero_f32)]
  rfl

/-- The second straight-through weight at an element. -/
theorem ste_q_apply (x2 : (⟨S4096x4096, .f32⟩ : BufTy).Contents (Elt Ideal)) (j : S4096x4096.Idx) :
    val_main_v9 (F := Ideal) x2 j = x2 j + (ind (x2 j) - x2 j) := by
  rw [val_main_v9_apply, val_main_v8_apply, val_main_v7_apply, val_main_v6_apply, val_main_v5_apply, val_main_cst_0_apply,
    host_ind _ _ (by exact Ideal.ofBits_zero_f32)]
  rfl

/-- On real arguments the reference's result is the layer. -/
theorem reference_eq (x0 : (⟨S8192x4096, .f32⟩ : BufTy).Contents (Elt Ideal)) (x1 x2 : (⟨S4096x4096, .f32⟩ : BufTy).Contents (Elt Ideal))
    (h0 : ∀ j, ∃ r : ℝ, x0 j = r) (h1 : ∀ j, ∃ r : ℝ, x1 j = r) (h2 : ∀ j, ∃ r : ℝ, x2 j = r) :
    val_main_v12 (F := Ideal) x0 x1 x2 = ternaryLinear x0 x1 x2 := by
  funext i
  rw [val_main_v12_apply, val_main_v10_apply, val_main_v11_apply]
  have el : ∀ k, lidx_main_v10 i k = ix2 (n0 := 8192) (n1 := 4096) (i 0) k := fun k => funext fun a => match a with | ⟨0, _⟩ => rfl | ⟨1, _⟩ => rfl
  have er : ∀ k, ridx_main_v10 i k = ix2 (n0 := 4096) (n1 := 4096) (i 1) k := fun k => funext fun a => match a with | ⟨0, _⟩ => rfl | ⟨1, _⟩ => rfl
  have el' : ∀ k, lidx_main_v11 i k = ix2 (n0 := 8192) (n1 := 4096) (i 0) k := fun k => funext fun a => match a with | ⟨0, _⟩ => rfl | ⟨1, _⟩ => rfl
  have er' : ∀ k, ridx_main_v11 i k = ix2 (n0 := 4096) (n1 := 4096) (i 1) k := fun k => funext fun a => match a with | ⟨0, _⟩ => rfl | ⟨1, _⟩ => rfl
  refine Eq.trans ?_ (straight_through_sub (fun k => x0 (ix2 (n0 := 8192) (n1 := 4096) (i 0) k)) (fun k => x1 (ix2 (n0 := 4096) (n1 := 4096) (i 1) k)) (fun k => x2 (ix2 (n0 := 4096) (n1 := 4096) (i 1) k))
    (fun k => h0 _) (fun k => h1 _) (fun k => h2 _))
  show (∑ k, _) - (∑ k, _) = (∑ k, _) - (∑ k, _)
  congr 1
  · refine Finset.sum_congr rfl fun k _ => ?_
    rw [el k, er k, ste_p_apply]
  · refine Finset.sum_congr rfl fun k _ => ?_
    rw [el' k, er' k, ste_q_apply]

end Cert.Ternary

end
-- ==== Proof.TernaryFinite.lean ====
/-
  The precondition, read back: every activation and every weight is a real number.

  The precondition is the conjunction of three tests, one per argument array: every element's magnitude is below +∞.
  An extended real whose magnitude `max x (-x)` is below +∞ is neither infinity, so it is a real.
-/
import proofs.«116733_j75874892251182_1_alg».proof.Proof.Gen.Pre_finite_inputs
import proofs.«116733_j75874892251182_1_alg».proof.Proof.TernaryAlgebra
import Idealize.ShloMosaic.Lib.ReduceAll
import Idealize.ShloMosaic.Lib.ValueIdx
import Idealize.ShloMosaic.Lib.Pipeline.Value

noncomputable section

namespace Cert.Ternary

open Idealize.ShloMosaic Cert.Pre_finite_inputs

/-- The scalar shape has one index. -/
instance : Subsingleton Cert.Pre_finite_inputs.S_.Idx := ⟨fun a b => funext fun d => d.elim0⟩

/-- An extended real of magnitude below +∞ is a real number. -/
theorem real_of_abs_lt_top (x : EReal) (h : max x (-x) < ⊤) : ∃ r : ℝ, x = r := by
  induction x using EReal.rec
  · simp at h
  · exact ⟨_, rfl⟩
  · simp at h

/-- The word the precondition compares against denotes +∞. -/
theorem inf_word : Ideal.ofBits .f32 0x7F800000#32 = (⊤ : EReal) := by
  simp [Ideal.ofBits, Ideal.ieee]

/-- An element whose magnitude compares below the +∞ word is a real number. -/
theorem real_of_lt_inf {S : Shape} (y : FVec Ideal S .f32) (hb : S_.BroadcastsInDim S (![] : Fin 0 → Fin S.rank)) (j : S.Idx)
    (e : cmpf .olt (Host.absf y) (broadcastInDim S ![] hb (constant S_ .f32 0x7F800000#32)) j = 1#1) : ∃ r : ℝ, y j = r := by
  rw [ValueIdx.cmpf_apply, broadcastInDim_apply _ hb _ j (fun a => a.elim0) (fun a => a.elim0)] at e
  apply real_of_abs_lt_top
  have e' : Ideal.cmp .olt (max (y j) (-(y j))) (Ideal.ofBits .f32 0x7F800000#32) = 1#1 := e
  rw [inf_word] at e'
  unfold Ideal.cmp at e'
  by_contra hn
  simp [hn] at e'

/-- Under the precondition all three argument arrays hold real numbers. -/
theorem finite_of_pre (x : FVec Ideal S8192x4096 .f32) (p q : FVec Ideal S4096x4096 .f32)
    (h : Cert.Pre_finite_inputs.fn (F := Ideal) x p q = fun _ => 1#1) :
    (∀ j, ∃ r : ℝ, x j = r) ∧ (∀ j, ∃ r : ℝ, p j = r) ∧ (∀ j, ∃ r : ℝ, q j = r) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun j => real_of_lt_inf x _ j (Host.reduce_andi_all _ _ _ _ ValueIdx.ix0 h1 j),
    fun j => real_of_lt_inf p _ j (Host.reduce_andi_all _ _ _ _ ValueIdx.ix0 h2 j),
    fun j => real_of_lt_inf q _ j (Host.reduce_andi_all _ _ _ _ ValueIdx.ix0 h3 j)⟩

end Cert.Ternary
end
-- ==== Proof.lean ====
/-
  A ternary linear layer: 8192 tokens of 4096 features against 4096 output rows whose weights are the difference of two
  binarised arrays, `ind p - ind q` (`ind w` is one where `w` is positive and zero elsewhere).

  The kernel walks a 4 × 4 × 16 grid. At each point it binarises a [1024, 256] block of each weight array, multiplies a
  [2048, 256] block of activations by the transposed ternary block, and accumulates the product in the [2048, 1024]
  output block, which it zeroes at the first of the block's 16 points. The array it leaves is therefore, element by
  element, `∑ k, x (t, k) · (ind (p (o, k)) - ind (q (o, k)))` over all 4096 contracted coordinates
  (`Cert.Ternary.G3_eq`).

  The reference forms the straight-through weights `w + (ind w - w)`, multiplies the activations by each array's
  transpose and subtracts. Under the precondition every activation and every weight is a real number
  (`Cert.Ternary.finite_of_pre`); then `w + (ind w - w) = ind w`, and the difference of the two products is the one
  product with the ternary weights (`Cert.Ternary.reference_eq`). Both programs compute `Cert.Ternary.ternaryLinear`
  of their arguments. At an infinite weight or activation the two sides differ, which is why the precondition is used.

  The kernel's idealization rewrote nothing, so the claim that relates the two printings of the kernel is trivial.
-/
import proofs.«116733_j75874892251182_1_alg».proof.Defs
import proofs.«116733_j75874892251182_1_alg».proof.Proof.Gen.Kernel.Frame
import proofs.«116733_j75874892251182_1_alg».proof.Proof.Gen.KernelIdeal.Value
import proofs.«116733_j75874892251182_1_alg».proof.Proof.Gen.Pre_finite_inputs
import proofs.«116733_j75874892251182_1_alg».proof.Proof.Gen.ReferenceIdeal.Run
import proofs.«116733_j75874892251182_1_alg».proof.Proof.TernaryKernelValue
import proofs.«116733_j75874892251182_1_alg».proof.Proof.TernaryReference
import proofs.«116733_j75874892251182_1_alg».proof.Proof.TernaryFinite
import Idealize.ShloMosaic.Adequacy
import Idealize.ShloMosaic.Init

noncomputable section

namespace Cert.Proof

open Idealize.ShloMosaic Idealize.SL.Sem

/-- The idealized kernel terminates without a fault and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference likewise: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the three arguments, both programs end with the layer of those arguments: the kernel by
    its fold over the grid's last axis, the reference because its arguments are real numbers under the precondition. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  obtain ⟨f0, f1, f2⟩ := Cert.Ternary.finite_of_pre _ _ _ (hpre c)
  refine (Cert.ReferenceIdeal.Read.val_main_v12_eq _ _ _).trans ?_
  refine (Cert.Ternary.reference_eq _ _ _ f0 f1 f2).trans ?_
  exact (Cert.Ternary.G3_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
